-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x800000 32) (main_arg2 : FVec F S128x256 .f32) (main_arg3 : FVec F S256 .f32) (main_arg4 : FVec F S256x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_v13 main_v16
-- ==== Kernel.lean ====
abbrev S100000x128 : Shape := ⟨2, ![100000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S100000x256 : Shape := ⟨2, ![100000, 256]⟩
abbrev S5000x128 : Shape := ⟨2, ![5000, 128]⟩
abbrev S5000x256 : Shape := ⟨2, ![5000, 256]⟩
abbrev S900000x256 : Shape := ⟨2, ![900000, 256]⟩
abbrev S1x256 : Shape := ⟨2, ![1, 256]⟩
abbrev S100000x64 : Shape := ⟨2, ![100000, 64]⟩
abbrev S5000x64 : Shape := ⟨2, ![5000, 64]⟩
abbrev S900000x64 : Shape := ⟨2, ![900000, 64]⟩
abbrev S1x64 : Shape := ⟨2, ![1, 64]⟩

abbrev nBuf : Space → Nat
  | .hbm => 119
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S100000, .i32⟩
  | .hbm, ⟨7, _⟩ => ⟨S1x800000, .i32⟩
  | .hbm, ⟨8, _⟩ => ⟨S800000, .i32⟩
  | .hbm, ⟨9, _⟩ => ⟨S900000, .i32⟩
  | .hbm, ⟨10, _⟩ => ⟨S_, .f32⟩
  | .hbm, ⟨11, _⟩ => ⟨S900000, .f32⟩
  | .hbm, ⟨12, _⟩ => ⟨S_, .f32⟩
  | .hbm, ⟨13, _⟩ => ⟨S100000, .f32⟩
  | .hbm, ⟨14, _⟩ => ⟨S900000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x256, .f32⟩
  | .hbm, ⟨25, _⟩ => ⟨S100000, .i32⟩
  | .hbm, ⟨26, _⟩ => ⟨S1x800000, .i32⟩
  | .hbm, ⟨27, _⟩ => ⟨S800000, .i32⟩
  | .hbm, ⟨28, _⟩ => ⟨S900000, .i32⟩
  | .hbm, ⟨29, _⟩ => ⟨S1x800000, .i32⟩
  | .hbm, ⟨30, _⟩ => ⟨S800000, .i32⟩
  | .hbm, ⟨31, _⟩ => ⟨S900000, .i32⟩
  | .hbm, ⟨32, _⟩ => ⟨S_, .i32⟩
  | .hbm, ⟨33, _⟩ => ⟨S900000, .i32⟩
  | .hbm, ⟨34, _⟩ => ⟨S900000, .i1⟩
  | .hbm, ⟨35, _⟩ => ⟨S_, .i32⟩
  | .hbm, ⟨36, _⟩ => ⟨S900000, .i32⟩
  | .hbm, ⟨37, _⟩ => ⟨S900000, .i32⟩
  | .hbm, ⟨38, _⟩ => ⟨S900000, .i32⟩
  | .hbm, ⟨39, _⟩ => ⟨S900000x1, .i32⟩
  | .hbm, ⟨40, _⟩ => ⟨S900000, .f32⟩
  | .hbm, ⟨41, _⟩ => ⟨S_, .i32⟩
  | .hbm, ⟨42, _⟩ => ⟨S900000, .i32⟩
  | .hbm, ⟨43, _⟩ => ⟨S900000, .i1⟩
  | .hbm, ⟨44, _⟩ => ⟨S_, .i32⟩
  | .hbm, ⟨45, _⟩ => ⟨S900000, .i32⟩
  | .hbm, ⟨46, _⟩ => ⟨S900000, .i32⟩
  | .hbm, ⟨47, _⟩ => ⟨S900000, .i32⟩
  | .hbm, ⟨48, _⟩ => ⟨S900000x1, .i32⟩
  | .hbm, ⟨49, _⟩ => ⟨S900000, .f32⟩
  | .hbm, ⟨50, _⟩ => ⟨S900000, .f32⟩
  | .hbm, ⟨51, _⟩ => ⟨S_, .i32⟩
  | .hbm, ⟨52, _⟩ => ⟨S900000, .i32⟩
  | .hbm, ⟨53, _⟩ => ⟨S900000, .i1⟩
  | .hbm, ⟨54, _⟩ => ⟨S_, .i32⟩
  | .hbm, ⟨55, _⟩ => ⟨S900000, .i32⟩
  | .hbm, ⟨56, _⟩ => ⟨S900000, .i32⟩
  | .hbm, ⟨57, _⟩ => ⟨S900000, .i32⟩
  | .hbm, ⟨58, _⟩ => ⟨S900000x1, .i32⟩
  | .hbm, ⟨59, _⟩ => ⟨S900000x256, .f32⟩
  | .hbm, ⟨60, _⟩ => ⟨S900000x1, .f32⟩
  | .hbm, ⟨61, _⟩ => ⟨S900000x256, .f32⟩
  | .hbm, ⟨62, _⟩ => ⟨S900000x256, .f32⟩
  | .hbm, ⟨63, _⟩ => ⟨S_, .f32⟩
  | .hbm, ⟨64, _⟩ => ⟨S100000x256, .f32⟩
  | .hbm, ⟨65, _⟩ => ⟨S900000x1, .i32⟩
  | .hbm, ⟨66, _⟩ => ⟨S100000x256, .f32⟩
  | .hbm, ⟨67, _⟩ => ⟨S1x256, .f32⟩
  | .hbm, ⟨68, _⟩ => ⟨S100000x256, .f32⟩
  | .hbm, ⟨69, _⟩ => ⟨S100000x256, .f32⟩
  | .hbm, ⟨70, _⟩ => ⟨S_, .f32⟩
  | .hbm, ⟨71, _⟩ => ⟨S100000x256, .f32⟩
  | .hbm, ⟨72, _⟩ => ⟨S100000x256, .f32⟩
  | .hbm, ⟨73, _⟩ => ⟨S100000x64, .f32⟩
  | .hbm, ⟨74, _⟩ => ⟨S100000, .i32⟩
  | .hbm, ⟨75, _⟩ => ⟨S1x800000, .i32⟩
  | .hbm, ⟨76, _⟩ => ⟨S800000, .i32⟩
  | .hbm, ⟨77, _⟩ => ⟨S900000, .i32⟩
  | .hbm, ⟨78, _⟩ => ⟨S1x800000, .i32⟩
  | .hbm, ⟨79, _⟩ => ⟨S800000, .i32⟩
  | .hbm, ⟨80, _⟩ => ⟨S900000, .i32⟩
  | .hbm, ⟨81, _⟩ => ⟨S_, .i32⟩
  | .hbm, ⟨82, _⟩ => ⟨S900000, .i32⟩
  | .hbm, ⟨83, _⟩ => ⟨S900000, .i1⟩
  | .hbm, ⟨84, _⟩ => ⟨S_, .i32⟩
  | .hbm, ⟨85, _⟩ => ⟨S900000, .i32⟩
  | .hbm, ⟨86, _⟩ => ⟨S900000, .i32⟩
  | .hbm, ⟨87, _⟩ => ⟨S900000, .i32⟩
  | .hbm, ⟨88, _⟩ => ⟨S900000x1, .i32⟩
  | .hbm, ⟨89, _⟩ => ⟨S900000, .f32⟩
  | .hbm, ⟨90, _⟩ => ⟨S_, .i32⟩
  | .hbm, ⟨91, _⟩ => ⟨S900000, .i32⟩
  | .hbm, ⟨92, _⟩ => ⟨S900000, .i1⟩
  | .hbm, ⟨93, _⟩ => ⟨S_, .i32⟩
  | .hbm, ⟨94, _⟩ => ⟨S900000, .i32⟩
  | .hbm, ⟨95, _⟩ => ⟨S900000, .i32⟩
  | .hbm, ⟨96, _⟩ => ⟨S900000, .i32⟩
  | .hbm, ⟨97, _⟩ => ⟨S900000x1, .i32⟩
  | .hbm, ⟨98, _⟩ => ⟨S900000, .f32⟩
  | .hbm, ⟨99, _⟩ => ⟨S900000, .f32⟩
  | .hbm, ⟨100, _⟩ => ⟨S_, .i32⟩
  | .hbm, ⟨101, _⟩ => ⟨S900000, .i32⟩
  | .hbm, ⟨102, _⟩ => ⟨S900000, .i1⟩
  | .hbm, ⟨103, _⟩ => ⟨S_, .i32⟩
  | .hbm, ⟨104, _⟩ => ⟨S900000, .i32⟩
  | .hbm, ⟨105, _⟩ => ⟨S900000, .i32⟩
  | .hbm, ⟨106, _⟩ => ⟨S900000, .i32⟩
  | .hbm, ⟨107, _⟩ => ⟨S900000x1, .i32⟩
  | .hbm, ⟨108, _⟩ => ⟨S900000x64, .f32⟩
  | .hbm, ⟨109, _⟩ => ⟨S900000x1, .f32⟩
  | .hbm, ⟨110, _⟩ => ⟨S900000x64, .f32⟩
  | .hbm, ⟨111, _⟩ => ⟨S900000x64, .f32⟩
  | .hbm, ⟨112, _⟩ => ⟨S_, .f32⟩
  | .hbm, ⟨113, _⟩ => ⟨S100000x64, .f32⟩
  | .hbm, ⟨114, _⟩ => ⟨S900000x1, .i32⟩
  | .hbm, ⟨115, _⟩ => ⟨S100000x64, .f32⟩
  | .hbm, ⟨116, _⟩ => ⟨S1x64, .f32⟩
  | .hbm, ⟨117, _⟩ => ⟨S100000x64, .f32⟩
  | .hbm, ⟨118, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256x64, .f32⟩
  | .local _ .vmem, ⟨8, _⟩ => ⟨S5000x64, .f32⟩
  | .local _ .vmem, ⟨9, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_6 : Ref sig .tc := ⟨.hbm, 51, rfl⟩
abbrev main_v35 : Ref sig .tc := ⟨.hbm, 52, rfl⟩
abbrev main_v36 : Ref sig .tc := ⟨.hbm, 53, rfl⟩
abbrev main_c_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_call1_cst : Ref sig .tc := ⟨.hbm, 70, rfl⟩
abbrev main_call1_v0 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_c_9 : Ref sig .tc := ⟨.hbm, 81, rfl⟩
abbrev main_v60 : Ref sig .tc := ⟨.hbm, 82, rfl⟩
abbrev main_v61 : Ref sig .tc := ⟨.hbm, 83, rfl⟩
abbrev main_c_10 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_c_11 : Ref sig .tc := ⟨.hbm, 90, rfl⟩
abbrev main_v67 : Ref sig .tc := ⟨.hbm, 91, rfl⟩
abbrev main_v68 : Ref sig .tc := ⟨.hbm, 92, rfl⟩
abbrev main_c_12 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_c_13 : Ref sig .tc := ⟨.hbm, 100, rfl⟩
abbrev main_v75 : Ref sig .tc := ⟨.hbm, 101, rfl⟩
abbrev main_v76 : Ref sig .tc := ⟨.hbm, 102, rfl⟩
abbrev main_c_14 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_15 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_1_0 : S2x800000.Slices ![1, 0] S1x800000
  shapeCasts_S1x800000_S800000 : S1x800000.ShapeCasts S800000
  concatenates_S800000_S100000_S900000_d0 : Shape.Concatenates [S800000, S100000] S900000 0
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  slices_S2x800000_S1x800000_0_0 : S2x800000.Slices ![0, 0] S1x800000
  bcast_S900000x1_S900000x256_0_1 : S900000x1.BroadcastsInDim S900000x256 (![0, 1] : Fin 2 → Fin S900000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  shapeCasts_S5000x256_S5000x256 : S5000x256.ShapeCasts S5000x256
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S900000x1_S900000x64_0_1 : S900000x1.BroadcastsInDim S900000x64 (![0, 1] : Fin 2 → Fin S900000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S900000x1_S900000_n_0_0_1_wf : ScatterDims.WF S100000 S900000x1 S900000 [] [0] [0] 1
  dot_S5000x128_S128x256_S5000x256_1_0_0_1_n_n_wf : DotDims.WF S5000x128 S128x256 S5000x256 [1] [0] [0] [1] [] []
  gather_S100000_S900000x1_S900000_n_0_n_n_0_1_1_wf : GatherDims.WF S100000 S900000x1 S900000 [] [0] [] [0] [] 1 ![1]
  gather_S100000x256_S900000x1_S900000x256_1_0_n_n_0_1_1256_wf : GatherDims.WF S100000x256 S900000x1 S900000x256 [1] [0] [] [0] [] 1 ![1, 256]
  scatter_S100000x256_S900000x1_S900000x256_1_0_0_1_wf : ScatterDims.WF S100000x256 S900000x1 S900000x256 [1] [0] [0] 1
  dot_S5000x256_S256x64_S5000x64_1_0_0_1_n_n_wf : DotDims.WF S5000x256 S256x64 S5000x64 [1] [0] [0] [1] [] []
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S100000x256.size a
  hwx0_2 : ∀ i : grid0.Coords, EltTy.bits .f32 = 32 ∨ (Rect.block (s := S100000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .f32 = 32 ∨ (Rect.block (s := S100000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .f32 = 32 ∨ (Rect.block (s := S256x64) S256x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x256_S900000x1_S900000x256_1_0_n_n_0_1_1256 : GatherDims S100000x256 S900000x1 S900000x256 where
  offsetDims := [1]
  collapsedSliceDims := [0]
  operandBatchingDims := []
  startIndicesBatchingDims := []
  startIndexMap := [0]
  indexVectorDim := 1
  sliceSizes := ![1, 256]
  wf := gather_S100000x256_S900000x1_S900000x256_1_0_n_n_0_1_1256_wf
def scatter_S100000x256_S900000x1_S900000x256_1_0_0_1 : ScatterDims S100000x256 S900000x1 S900000x256 where
  updateWindowDims := [1]
  insertedWindowDims := [0]
  scatterDimsToOperandDims := [0]
  indexVectorDim := 1
  wf := scatter_S100000x256_S900000x1_S900000x256_1_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S100000x256 : Shape := ⟨2, ![100000, 256]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S900000x256 : Shape := ⟨2, ![900000, 256]⟩
abbrev S1x256 : Shape := ⟨2, ![1, 256]⟩
abbrev S100000x64 : Shape := ⟨2, ![100000, 64]⟩
abbrev S900000x64 : Shape := ⟨2, ![900000, 64]⟩
abbrev S1x64 : Shape := ⟨2, ![1, 64]⟩

abbrev nBuf : Space → Nat
  | .hbm => 129
  | .vmem => 0
  | .smem => 0
  | _ => 0

abbrev hbmTy0_0 (i : Nat) : BufTy := match i % 128 with
  | 0 => ⟨S100000x128, .f32⟩
  | 1 => ⟨S2x800000, .i32⟩
  | 2 => ⟨S128x256, .f32⟩
  | 3 => ⟨S256, .f32⟩
  | 4 => ⟨S256x64, .f32⟩
  | 5 => ⟨S64, .f32⟩
  | 6 => ⟨S100000x256, .f32⟩
  | 7 => ⟨S100000, .i32⟩
  | 8 => ⟨S1x800000, .i32⟩
  | 9 => ⟨S800000, .i32⟩
  | 10 => ⟨S900000, .i32⟩
  | 11 => ⟨S1x800000, .i32⟩
  | 12 => ⟨S800000, .i32⟩
  | 13 => ⟨S900000, .i32⟩
  | 14 => ⟨S_, .f32⟩
  | 15 => ⟨S900000, .f32⟩
  | 16 => ⟨S_, .f32⟩
  | 17 => ⟨S100000, .f32⟩
  | 18 => ⟨S900000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S900000, .i32⟩
  | 30 => ⟨S900000, .i1⟩
  | 31 => ⟨S_, .i32⟩
  | 32 => ⟨S900000, .i32⟩
  | 33 => ⟨S900000, .i32⟩
  | 34 => ⟨S900000, .i32⟩
  | 35 => ⟨S900000x1, .i32⟩
  | 36 => ⟨S900000, .f32⟩
  | 37 => ⟨S_, .i32⟩
  | 38 => ⟨S900000, .i32⟩
  | 39 => ⟨S900000, .i1⟩
  | 40 => ⟨S_, .i32⟩
  | 41 => ⟨S900000, .i32⟩
  | 42 => ⟨S900000, .i32⟩
  | 43 => ⟨S900000, .i32⟩
  | 44 => ⟨S900000x1, .i32⟩
  | 45 => ⟨S900000, .f32⟩
  | 46 => ⟨S900000, .f32⟩
  | 47 => ⟨S_, .i32⟩
  | 48 => ⟨S900000, .i32⟩
  | 49 => ⟨S900000, .i1⟩
  | 50 => ⟨S_, .i32⟩
  | 51 => ⟨S900000, .i32⟩
  | 52 => ⟨S900000, .i32⟩
  | 53 => ⟨S900000, .i32⟩
  | 54 => ⟨S900000x1, .i32⟩
  | 55 => ⟨S900000x256, .f32⟩
  | 56 => ⟨S900000x1, .f32⟩
  | 57 => ⟨S900000x256, .f32⟩
  | 58 => ⟨S900000x256, .f32⟩
  | 59 => ⟨S_, .f32⟩
  | 60 => ⟨S100000x256, .f32⟩
  | 61 => ⟨S900000x1, .i32⟩
  | 62 => ⟨S100000x256, .f32⟩
  | 63 => ⟨S1x256, .f32⟩
  | 64 => ⟨S100000x256, .f32⟩
  | 65 => ⟨S100000x256, .f32⟩
  | 66 => ⟨S_, .f32⟩
  | 67 => ⟨S100000x256, .f32⟩
  | 68 => ⟨S100000x256, .f32⟩
  | 69 => ⟨S100000x64, .f32⟩
  | 70 => ⟨S100000, .i32⟩
  | 71 => ⟨S1x800000, .i32⟩
  | 72 => ⟨S800000, .i32⟩
  | 73 => ⟨S900000, .i32⟩
  | 74 => ⟨S1x800000, .i32⟩
  | 75 => ⟨S800000, .i32⟩
  | 76 => ⟨S900000, .i32⟩
  | 77 => ⟨S_, .f32⟩
  | 78 => ⟨S900000, .f32⟩
  | 79 => ⟨S_, .f32⟩
  | 80 => ⟨S100000, .f32⟩
  | 81 => ⟨S900000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S900000, .i32⟩
  | 93 => ⟨S900000, .i1⟩
  | 94 => ⟨S_, .i32⟩
  | 95 => ⟨S900000, .i32⟩
  | 96 => ⟨S900000, .i32⟩
  | 97 => ⟨S900000, .i32⟩
  | 98 => ⟨S900000x1, .i32⟩
  | 99 => ⟨S900000, .f32⟩
  | 100 => ⟨S_, .i32⟩
  | 101 => ⟨S900000, .i32⟩
  | 102 => ⟨S900000, .i1⟩
  | 103 => ⟨S_, .i32⟩
  | 104 => ⟨S900000, .i32⟩
  | 105 => ⟨S900000, .i32⟩
  | 106 => ⟨S900000, .i32⟩
  | 107 => ⟨S900000x1, .i32⟩
  | 108 => ⟨S900000, .f32⟩
  | 109 => ⟨S900000, .f32⟩
  | 110 => ⟨S_, .i32⟩
  | 111 => ⟨S900000, .i32⟩
  | 112 => ⟨S900000, .i1⟩
  | 113 => ⟨S_, .i32⟩
  | 114 => ⟨S900000, .i32⟩
  | 115 => ⟨S900000, .i32⟩
  | 116 => ⟨S900000, .i32⟩
  | 117 => ⟨S900000x1, .i32⟩
  | 118 => ⟨S900000x64, .f32⟩
  | 119 => ⟨S900000x1, .f32⟩
  | 120 => ⟨S900000x64, .f32⟩
  | 121 => ⟨S900000x64, .f32⟩
  | 122 => ⟨S_, .f32⟩
  | 123 => ⟨S100000x64, .f32⟩
  | 124 => ⟨S900000x1, .i32⟩
  | 125 => ⟨S100000x64, .f32⟩
  | 126 => ⟨S1x64, .f32⟩
  | 127 => ⟨S100000x64, .f32⟩
  | _ => ⟨S100000x128, .f32⟩

abbrev hbmTy0_1 (i : Nat) : BufTy := match i % 128 with
  | 0 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x256_0_1 : S900000x1.BroadcastsInDim S900000x256 (![0, 1] : Fin 2 → Fin S900000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S900000x1_S900000x64_0_1 : S900000x1.BroadcastsInDim S900000x64 (![0, 1] : Fin 2 → Fin S900000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x256_S100000x256_1_0_0_1_n_n_wf : DotDims.WF S100000x128 S128x256 S100000x256 [1] [0] [0] [1] [] []
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x256_S900000x1_S900000x256_1_0_n_n_0_1_1256_wf : GatherDims.WF S100000x256 S900000x1 S900000x256 [1] [0] [] [0] [] 1 ![1, 256]
  scatter_S100000x256_S900000x1_S900000x256_1_0_0_1_wf : ScatterDims.WF S100000x256 S900000x1 S900000x256 [1] [0] [0] 1
  dot_S100000x256_S256x64_S100000x64_1_0_0_1_n_n_wf : DotDims.WF S100000x256 S256x64 S100000x64 [1] [0] [0] [1] [] []
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1

variable [Facts₀]

def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x256_S900000x1_S900000x256_1_0_n_n_0_1_1256 : GatherDims S100000x256 S900000x1 S900000x256 where
  offsetDims := [1]
  collapsedSliceDims := [0]
  operandBatchingDims := []
  startIndicesBatchingDims := []
  startIndexMap := [0]
  indexVectorDim := 1
  sliceSizes := ![1, 256]
  wf := gather_S100000x256_S900000x1_S900000x256_1_0_n_n_0_1_1256_wf
def scatter_S100000x256_S900000x1_S900000x256_1_0_0_1 : ScatterDims S100000x256 S900000x1 S900000x256 where
  updateWindowDims := [1]
  insertedWindowDims := [0]
  scatterDimsToOperandDims := [0]
  indexVectorDim := 1
  wf := scatter_S100000x256_S900000x1_S900000x256_1_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf

class Facts : Prop extends Facts₀ where

variable [Facts]
-- ==== Proof.Boundaries.lean ====
/-
  What the buffers hold at the boundaries between the segments of the run.

  The run of the program is a fold over its segments: a stretch of host operations changes exactly the buffers its
  operations write, and a kernel region changes exactly its own result array. So a buffer keeps its contents across
  every segment that does not write it: the six arguments from the launch to the end, and the inverse-square-root
  degree vector (written once, in the first stretch) from there on.
-/
import proofs.«165485_j30966714204224_1_alg».proof.Proof.Gen.KernelIdeal.Frame
import Idealize.ShloMosaic.Lib.StableHlo.Run

set_option maxRecDepth 16384

noncomputable section

namespace Cert.KernelIdeal.Boundaries

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- No operation of the named stretch writes the buffer in the goal: each operation writes one buffer, and it is another. -/
macro "no_write_in" ops:ident : tactic =>
  `(tactic| (refine List.forall_iff_forall_mem.mp ?_
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-! ## The edge list: never written -/

theorem W1_edges (c : Dev nD) : W1 m ρ c (Proc.devRef .tc main_arg1) = m ((c : Thread nD τ).loc main_arg1) :=
  StableHlo.after_of_forall_not_mem (b := Proc.devRef .tc main_arg1) _ _ (by no_write_in hostOps0)
theorem W2_edges (c : Dev nD) : W2 m ρ c (Proc.devRef .tc main_arg1) = m ((c : Thread nD τ).loc main_arg1) :=
  (StableHlo.after_of_forall_not_mem (b := Proc.devRef .tc main_arg1) _ _ (by no_write_in hostOps0_1)).trans (W1_edges m ρ c)
theorem W3_edges (c : Dev nD) : W3 m ρ c (Proc.devRef .tc main_arg1) = m ((c : Thread nD τ).loc main_arg1) :=
  (W3_of_ne m ρ c main_arg1 (by decide)).trans (W2_edges m ρ c)
theorem W6_edges (c : Dev nD) : W6 m ρ c (Proc.devRef .tc main_arg1) = m ((c : Thread nD τ).loc main_arg1) :=
  (StableHlo.after_of_forall_not_mem (b := Proc.devRef .tc main_arg1) hostOps2 (W6 m ρ c) (by no_write_in hostOps2)).symm.trans (W7_main_arg1 m ρ c)

/-! ## The features and the first weights, up to the first region -/

theorem W2_features (c : Dev nD) : W2 m ρ c (Proc.devRef .tc main_arg0) = m ((c : Thread nD τ).loc main_arg0) :=
  (StableHlo.after_of_forall_not_mem (b := Proc.devRef .tc main_arg0) _ _ (by no_write_in hostOps0_1)).trans
    (StableHlo.after_of_forall_not_mem (b := Proc.devRef .tc main_arg0) _ _ (by no_write_in hostOps0))
theorem W2_weights1 (c : Dev nD) : W2 m ρ c (Proc.devRef .tc main_arg2) = m ((c : Thread nD τ).loc main_arg2) :=
  (StableHlo.after_of_forall_not_mem (b := Proc.devRef .tc main_arg2) _ _ (by no_write_in hostOps0_1)).trans
    (StableHlo.after_of_forall_not_mem (b := Proc.devRef .tc main_arg2) _ _ (by no_write_in hostOps0))

/-! ## The first bias, up to the first region's exit -/

theorem W3_bias1 (c : Dev nD) : W3 m ρ c (Proc.devRef .tc main_arg3) = m ((c : Thread nD τ).loc main_arg3) :=
  (W3_of_ne m ρ c main_arg3 (by decide)).trans
    ((StableHlo.after_of_forall_not_mem (b := Proc.devRef .tc main_arg3) _ _ (by no_write_in hostOps0_1)).trans
      (StableHlo.after_of_forall_not_mem (b := Proc.devRef .tc main_arg3) _ _ (by no_write_in hostOps0)))

/-! ## The second weights, up to the second region -/

theorem W5_weights2 (c : Dev nD) : W5 m ρ c (Proc.devRef .tc main_arg4) = m ((c : Thread nD τ).loc main_arg4) :=
  (StableHlo.after_of_forall_not_mem (b := Proc.devRef .tc main_arg4) _ _ (by no_write_in hostOps1_1)).trans
    ((StableHlo.after_of_forall_not_mem (b := Proc.devRef .tc main_arg4) _ _ (by no_write_in hostOps1)).trans
      ((W3_of_ne m ρ c main_arg4 (by decide)).trans
        ((StableHlo.after_of_forall_not_mem (b := Proc.devRef .tc main_arg4) _ _ (by no_write_in hostOps0_1)).trans
          (StableHlo.after_of_forall_not_mem (b := Proc.devRef .tc main_arg4) _ _ (by no_write_in hostOps0)))))

/-! ## The second bias, at the second region's exit -/

theorem W6_bias2 (c : Dev nD) : W6 m ρ c (Proc.devRef .tc main_arg5) = m ((c : Thread nD τ).loc main_arg5) :=
  (StableHlo.after_of_forall_not_mem (b := Proc.devRef .tc main_arg5) hostOps2 (W6 m ρ c) (by no_write_in hostOps2)).symm.trans (W7_main_arg5 m ρ c)

/-! ## The inverse-square-root degrees: written in the first stretch, kept from then on -/

theorem W3_degrees (c : Dev nD) : W3 m ρ c (Proc.devRef .tc main_v11) = W2 m ρ c (Proc.devRef .tc main_v11) :=
  W3_of_ne m ρ c main_v11 (by decide)
theorem W6_degrees (c : Dev nD) : W6 m ρ c (Proc.devRef .tc main_v11) = W2 m ρ c (Proc.devRef .tc main_v11) :=
  (W6_of_ne m ρ c main_v11 (by decide)).trans
    ((StableHlo.after_of_forall_not_mem (b := Proc.devRef .tc main_v11) _ _ (by no_write_in hostOps1_1)).trans
      ((StableHlo.after_of_forall_not_mem (b := Proc.devRef .tc main_v11) _ _ (by no_write_in hostOps1)).trans
        (W3_degrees m ρ c)))

end Cert.KernelIdeal.Boundaries

end
-- ==== Proof.Layer1Product.lean ====
/-
  The first dense layer, read as one array.

  The first region multiplies the node features by the first weight matrix, 5000 rows at a time: grid point `t`
  loads rows `5000 t … 5000 t + 4999` of the features and the whole weight matrix, rounds both to bf16 (the identity on
  extended reals), multiplies them into a zero accumulator and writes the 5000 × 256 product back as block `t` of the
  result. Over the extended reals entry `(r, c)` of a block product is the plain sum `∑ₖ x(r, k) · w(k, c)`, a row of the
  block is a row of the whole array, and the twenty blocks tile the 100000 rows; so after the region the result array
  is the whole product `rowsTimesCols x w`, entry by entry.
-/
import proofs.«165485_j30966714204224_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Layer1

open Cert.KernelIdeal Cert.KernelIdeal.Gen Idealize.ShloMosaic Idealize.ShloMosaic.TcCoe Idealize.SL.Sem
open Idealize.ShloMosaic.Pipeline (Dat Cfg Window)

/-! ## The product, entry by entry -/

/-- Entry `(r, k)` of the features, for the output entry `i = (r, c)`. -/
abbrev featAt (i : S100000x256.Idx) (k : Fin 128) : S100000x128.Idx := fun a => match a with
  | ⟨0, _⟩ => ⟨(i 0).val, (i 0).isLt⟩
  | ⟨1, _⟩ => ⟨k.val, k.isLt⟩
/-- Entry `(k, c)` of the weights, for the output entry `i = (r, c)`. -/
abbrev weightAt (i : S100000x256.Idx) (k : Fin 128) : S128x256.Idx := fun a => match a with
  | ⟨0, _⟩ => ⟨k.val, k.isLt⟩
  | ⟨1, _⟩ => ⟨(i 1).val, (i 1).isLt⟩

/-- The matrix product over the extended reals: `(x · w)(r, c) = ∑ₖ x(r, k) · w(k, c)`. -/
def rowsTimesCols (x : S100000x128.Idx → EReal) (w : S128x256.Idx → EReal) : S100000x256.Idx → EReal :=
  fun i => ∑ k : Fin 128, x (featAt i k) * w (weightAt i k)

/-! ## One block's product -/

/-- Entry `(r, k)` of a 5000-row block of the features, for the block entry `j = (r, c)`. -/
abbrev blockFeatAt (j : S5000x256.Idx) (k : Fin 128) : S5000x128.Idx := fun a => match a with
  | ⟨0, _⟩ => ⟨(j 0).val, (j 0).isLt⟩
  | ⟨1, _⟩ => ⟨k.val, k.isLt⟩
/-- Entry `(k, c)` of the weights, for the block entry `j = (r, c)`. -/
abbrev blockWeightAt (j : S5000x256.Idx) (k : Fin 128) : S128x256.Idx := fun a => match a with
  | ⟨0, _⟩ => ⟨k.val, k.isLt⟩
  | ⟨1, _⟩ => ⟨(j 1).val, (j 1).isLt⟩

theorem lhs_row (j : S5000x256.Idx) (q : dot_S5000x128_S128x256_S5000x256_1_0_0_1_n_n.contr.Idx) :
    (dot_S5000x128_S128x256_S5000x256_1_0_0_1_n_n.lhsIdx j q 0).val = (j 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem lhs_contr (j : S5000x256.Idx) (q : dot_S5000x128_S128x256_S5000x256_1_0_0_1_n_n.contr.Idx) :
    (dot_S5000x128_S128x256_S5000x256_1_0_0_1_n_n.lhsIdx j q 1).val = (q ⟨0, by decide⟩).val :=
  dot_S5000x128_S128x256_S5000x256_1_0_0_1_n_n.lhsIdx_val_of_single rfl j q
theorem rhs_contr (j : S5000x256.Idx) (q : dot_S5000x128_S128x256_S5000x256_1_0_0_1_n_n.contr.Idx) :
    (dot_S5000x128_S128x256_S5000x256_1_0_0_1_n_n.rhsIdx j q 0).val = (q ⟨0, by decide⟩).val :=
  dot_S5000x128_S128x256_S5000x256_1_0_0_1_n_n.rhsIdx_val_of_single rfl j q
theorem rhs_col (j : S5000x256.Idx) (q : dot_S5000x128_S128x256_S5000x256_1_0_0_1_n_n.contr.Idx) :
    (dot_S5000x128_S128x256_S5000x256_1_0_0_1_n_n.rhsIdx j q 1).val = (j 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- What the body stores, at an entry of the block: the rounding to bf16 is the identity on extended reals and the
    product into the zero accumulator is the bare sum over the 128 shared columns. -/
theorem blockProduct_apply (x : Vec Ideal S5000x128 .f32) (w : Vec Ideal S128x256 .f32) (j : S5000x256.Idx) :
    k0_pay1 (F := Ideal) x w j = ∑ k : Fin 128, x (blockFeatAt j k) * w (blockWeightAt j k) := by
  unfold k0_pay1
  -- (a reshape to the same shape, where a body has one, is the identity)
  simp only [matmul, shapeCast_self]
  rw [Ideal.matmul_constant_zero_apply, ← Equiv.sum_comp (ValueIdx.contrEquiv1 dot_S5000x128_S128x256_S5000x256_1_0_0_1_n_n 128 rfl rfl).symm]
  refine Finset.sum_congr rfl fun k _ => ?_
  have hk := ValueIdx.contrEquiv1_symm_val dot_S5000x128_S128x256_S5000x256_1_0_0_1_n_n 128 rfl rfl k
  have el : dot_S5000x128_S128x256_S5000x256_1_0_0_1_n_n.lhsIdx j ((ValueIdx.contrEquiv1 dot_S5000x128_S128x256_S5000x256_1_0_0_1_n_n 128 rfl rfl).symm k) = blockFeatAt j k := funext fun a => Fin.ext (by
    match a with
    | ⟨0, _⟩ => exact lhs_row _ _
    | ⟨1, _⟩ => exact (lhs_contr _ _).trans hk)
  have er : dot_S5000x128_S128x256_S5000x256_1_0_0_1_n_n.rhsIdx j ((ValueIdx.contrEquiv1 dot_S5000x128_S128x256_S5000x256_1_0_0_1_n_n 128 rfl rfl).symm k) = blockWeightAt j k := funext fun a => Fin.ext (by
    match a with
    | ⟨0, _⟩ => exact (rhs_contr _ _).trans hk
    | ⟨1, _⟩ => exact rhs_col _ _)
  show x _ * w _ = _
  rw [el, er]

/-! ## From the blocks to the array -/

variable (V : (c : Dev nD) → (b : Ref sig .tc) → Buf (Elt Ideal) ((c : Thread nD τ).loc b))

theorem origin : (![0, 0] : Fin 2 → Nat) = fun _ => 0 := funext fun a => by fin_cases a <;> rfl

/-- The three index maps over the twenty grid points: the feature block and the result block move together down the
    rows, the weight block stays, and nothing moves along the columns. -/
theorem blockIndices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every one of the twenty row blocks is some grid point's. -/
theorem everyRowBlock : ∀ q : Fin 20, ∃ t : Fin cfg0.N, win0_2.index t = ![q.val, 0] :=
  (by decide +kernel : ∀ q : Fin 20, ∃ t : Fin grid0.N, win0_2.index t = ![q.val, 0])

/-- What grid point `t` writes back is block `t` of the whole product of the arrays the region finds. -/
theorem writtenBack (c : Dev nD) (t : Fin cfg0.N) :
    (dat0 (F := Ideal) V c).flushed 2 t
      = ((cfg0.win 2).blk t).view.read (Elt Ideal) (rowsTimesCols (V c main_arg0) (V c main_arg2)) := by
  show (cfg0.win 2).cut (grid0.coords t) ((dat0 (F := Ideal) V c).after 2 t) = _
  rw [after0_2]
  unfold out0_2
  rw [View.canon_unit_zero origin]
  simp only [View.ld_unit_zero (S := S5000x128) origin, View.ld_unit_zero (S := S128x256) origin]
  obtain ⟨e0, e1, e2, e3, e4, e5⟩ := blockIndices t
  funext j
  show k0_pay1 (F := Ideal) (iblk0 V c 0 t) (iblk0 V c 1 t) j = rowsTimesCols (V c main_arg0) (V c main_arg2) (((cfg0.win 2).blk t).view.emb j)
  refine (blockProduct_apply (iblk0 V c 0 t) (iblk0 V c 1 t) j).trans ?_
  unfold rowsTimesCols
  refine Finset.sum_congr rfl fun k _ => ?_
  have hx : iblk0 V c 0 t (blockFeatAt j k) = V c main_arg0 (featAt (((cfg0.win 2).blk t).view.emb j) k) := by
    show V c main_arg0 (((cfg0.win 0).blk t).view.emb (blockFeatAt j k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hw : iblk0 V c 1 t (blockWeightAt j k) = V c main_arg2 (weightAt (((cfg0.win 2).blk t).view.emb j) k) := by
    show V c main_arg2 (((cfg0.win 1).blk t).view.emb (blockWeightAt j k)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 256 + 1 * (j 1).val = win0_2.index t (1 : Fin 2) * 256 + 1 * (j 1).val; omega
  rw [hx, hw]

/-- An entry of the result lies in grid point `t`'s block iff each coordinate lies in the block's range. -/
theorem inBlock (t : Fin cfg0.N) (i : S100000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v12).slice (win0_2.rect t)).set ↔ _
  rw [View.set_slice_whole, Rect.mem_set_unit]
  exact Iff.rfl

/-- Row `r` is written by the grid point whose block index is `r / 5000`: the blocks cover the array. -/
theorem covered (i : S100000x256.Idx) :
    ∃ t : Fin cfg0.N, (cfg0.win 2).flush t = true ∧ i ∈ ((cfg0.win 2).blk t).view.set := by
  have hi0 : (i 0).val < 100000 := (i 0).isLt
  have hi1 : (i 1).val < 256 := (i 1).isLt
  obtain ⟨t, ht⟩ := everyRowBlock ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [inBlock]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- After the region the result array is the whole product of the feature and weight arrays the region found. -/
theorem wholeProduct (c : Dev nD) :
    (dat0 (F := Ideal) V c).arrAt 2 cfg0.N = rowsTimesCols (V c main_arg0) (V c main_arg2) :=
  (dat0 (F := Ideal) V c).arrAt_eq_of_cover 2 _ (fun t _ => writtenBack V c t) covered

end Cert.KernelIdeal.Layer1

end
-- ==== Proof.Layer2Product.lean ====
/-
  The second dense layer, read as one array.

  The second region multiplies the hidden features (the first layer's aggregated, rectified output) by the second weight matrix, 5000 rows at a time: grid point `t`
  loads rows `5000 t … 5000 t + 4999` of the features and the whole weight matrix, rounds both to bf16 (the identity on
  extended reals), multiplies them into a zero accumulator and writes the 5000 × 64 product back as block `t` of the
  result. Over the extended reals entry `(r, c)` of a block product is the plain sum `∑ₖ x(r, k) · w(k, c)`, a row of the
  block is a row of the whole array, and the twenty blocks tile the 100000 rows; so after the region the result array
  is the whole product `rowsTimesCols x w`, entry by entry.
-/
import proofs.«165485_j30966714204224_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Layer2

open Cert.KernelIdeal Cert.KernelIdeal.Gen Idealize.ShloMosaic Idealize.ShloMosaic.TcCoe Idealize.SL.Sem
open Idealize.ShloMosaic.Pipeline (Dat Cfg Window)

/-! ## The product, entry by entry -/

/-- Entry `(r, k)` of the features, for the output entry `i = (r, c)`. -/
abbrev featAt (i : S100000x64.Idx) (k : Fin 256) : S100000x256.Idx := fun a => match a with
  | ⟨0, _⟩ => ⟨(i 0).val, (i 0).isLt⟩
  | ⟨1, _⟩ => ⟨k.val, k.isLt⟩
/-- Entry `(k, c)` of the weights, for the output entry `i = (r, c)`. -/
abbrev weightAt (i : S100000x64.Idx) (k : Fin 256) : S256x64.Idx := fun a => match a with
  | ⟨0, _⟩ => ⟨k.val, k.isLt⟩
  | ⟨1, _⟩ => ⟨(i 1).val, (i 1).isLt⟩

/-- The matrix product over the extended reals: `(x · w)(r, c) = ∑ₖ x(r, k) · w(k, c)`. -/
def rowsTimesCols (x : S100000x256.Idx → EReal) (w : S256x64.Idx → EReal) : S100000x64.Idx → EReal :=
  fun i => ∑ k : Fin 256, x (featAt i k) * w (weightAt i k)

/-! ## One block's product -/

/-- Entry `(r, k)` of a 5000-row block of the features, for the block entry `j = (r, c)`. -/
abbrev blockFeatAt (j : S5000x64.Idx) (k : Fin 256) : S5000x256.Idx := fun a => match a with
  | ⟨0, _⟩ => ⟨(j 0).val, (j 0).isLt⟩
  | ⟨1, _⟩ => ⟨k.val, k.isLt⟩
/-- Entry `(k, c)` of the weights, for the block entry `j = (r, c)`. -/
abbrev blockWeightAt (j : S5000x64.Idx) (k : Fin 256) : S256x64.Idx := fun a => match a with
  | ⟨0, _⟩ => ⟨k.val, k.isLt⟩
  | ⟨1, _⟩ => ⟨(j 1).val, (j 1).isLt⟩

theorem lhs_row (j : S5000x64.Idx) (q : dot_S5000x256_S256x64_S5000x64_1_0_0_1_n_n.contr.Idx) :
    (dot_S5000x256_S256x64_S5000x64_1_0_0_1_n_n.lhsIdx j q 0).val = (j 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
theorem lhs_contr (j : S5000x64.Idx) (q : dot_S5000x256_S256x64_S5000x64_1_0_0_1_n_n.contr.Idx) :
    (dot_S5000x256_S256x64_S5000x64_1_0_0_1_n_n.lhsIdx j q 1).val = (q ⟨0, by decide⟩).val :=
  dot_S5000x256_S256x64_S5000x64_1_0_0_1_n_n.lhsIdx_val_of_single rfl j q
theorem rhs_contr (j : S5000x64.Idx) (q : dot_S5000x256_S256x64_S5000x64_1_0_0_1_n_n.contr.Idx) :
    (dot_S5000x256_S256x64_S5000x64_1_0_0_1_n_n.rhsIdx j q 0).val = (q ⟨0, by decide⟩).val :=
  dot_S5000x256_S256x64_S5000x64_1_0_0_1_n_n.rhsIdx_val_of_single rfl j q
theorem rhs_col (j : S5000x64.Idx) (q : dot_S5000x256_S256x64_S5000x64_1_0_0_1_n_n.contr.Idx) :
    (dot_S5000x256_S256x64_S5000x64_1_0_0_1_n_n.rhsIdx j q 1).val = (j 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- What the body stores, at an entry of the block: the rounding to bf16 is the identity on extended reals and the
    product into the zero accumulator is the bare sum over the 256 shared columns. -/
theorem blockProduct_apply (x : Vec Ideal S5000x256 .f32) (w : Vec Ideal S256x64 .f32) (j : S5000x64.Idx) :
    k1_pay1 (F := Ideal) x w j = ∑ k : Fin 256, x (blockFeatAt j k) * w (blockWeightAt j k) := by
  unfold k1_pay1
  -- (a reshape to the same shape, where a body has one, is the identity)
  simp only [matmul, shapeCast_self]
  rw [Ideal.matmul_constant_zero_apply, ← Equiv.sum_comp (ValueIdx.contrEquiv1 dot_S5000x256_S256x64_S5000x64_1_0_0_1_n_n 256 rfl rfl).symm]
  refine Finset.sum_congr rfl fun k _ => ?_
  have hk := ValueIdx.contrEquiv1_symm_val dot_S5000x256_S256x64_S5000x64_1_0_0_1_n_n 256 rfl rfl k
  have el : dot_S5000x256_S256x64_S5000x64_1_0_0_1_n_n.lhsIdx j ((ValueIdx.contrEquiv1 dot_S5000x256_S256x64_S5000x64_1_0_0_1_n_n 256 rfl rfl).symm k) = blockFeatAt j k := funext fun a => Fin.ext (by
    match a with
    | ⟨0, _⟩ => exact lhs_row _ _
    | ⟨1, _⟩ => exact (lhs_contr _ _).trans hk)
  have er : dot_S5000x256_S256x64_S5000x64_1_0_0_1_n_n.rhsIdx j ((ValueIdx.contrEquiv1 dot_S5000x256_S256x64_S5000x64_1_0_0_1_n_n 256 rfl rfl).symm k) = blockWeightAt j k := funext fun a => Fin.ext (by
    match a with
    | ⟨0, _⟩ => exact (rhs_contr _ _).trans hk
    | ⟨1, _⟩ => exact rhs_col _ _)
  show x _ * w _ = _
  rw [el, er]

/-! ## From the blocks to the array -/

variable (V : (c : Dev nD) → (b : Ref sig .tc) → Buf (Elt Ideal) ((c : Thread nD τ).loc b))

theorem origin : (![0, 0] : Fin 2 → Nat) = fun _ => 0 := funext fun a => by fin_cases a <;> rfl

/-- The three index maps over the twenty grid points: the feature block and the result block move together down the
    rows, the weight block stays, and nothing moves along the columns. -/
theorem blockIndices : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 19 :=
  (by decide +kernel : ∀ t : Fin grid1.N, _)

/-- Every one of the twenty row blocks is some grid point's. -/
theorem everyRowBlock : ∀ q : Fin 20, ∃ t : Fin cfg1.N, win1_2.index t = ![q.val, 0] :=
  (by decide +kernel : ∀ q : Fin 20, ∃ t : Fin grid1.N, win1_2.index t = ![q.val, 0])

/-- What grid point `t` writes back is block `t` of the whole product of the arrays the region finds. -/
theorem writtenBack (c : Dev nD) (t : Fin cfg1.N) :
    (dat1 (F := Ideal) V c).flushed 2 t
      = ((cfg1.win 2).blk t).view.read (Elt Ideal) (rowsTimesCols (V c main_v51) (V c main_arg4)) := by
  show (cfg1.win 2).cut (grid1.coords t) ((dat1 (F := Ideal) V c).after 2 t) = _
  rw [after1_2]
  unfold out1_2
  rw [View.canon_unit_zero origin]
  simp only [View.ld_unit_zero (S := S5000x256) origin, View.ld_unit_zero (S := S256x64) origin]
  obtain ⟨e0, e1, e2, e3, e4, e5⟩ := blockIndices t
  funext j
  show k1_pay1 (F := Ideal) (iblk1 V c 0 t) (iblk1 V c 1 t) j = rowsTimesCols (V c main_v51) (V c main_arg4) (((cfg1.win 2).blk t).view.emb j)
  refine (blockProduct_apply (iblk1 V c 0 t) (iblk1 V c 1 t) j).trans ?_
  unfold rowsTimesCols
  refine Finset.sum_congr rfl fun k _ => ?_
  have hx : iblk1 V c 0 t (blockFeatAt j k) = V c main_v51 (featAt (((cfg1.win 2).blk t).view.emb j) k) := by
    show V c main_v51 (((cfg1.win 0).blk t).view.emb (blockFeatAt j k)) = _
    refine congrArg (V c main_v51) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 256 + 1 * k.val = k.val; omega
  have hw : iblk1 V c 1 t (blockWeightAt j k) = V c main_arg4 (weightAt (((cfg1.win 2).blk t).view.emb j) k) := by
    show V c main_arg4 (((cfg1.win 1).blk t).view.emb (blockWeightAt j k)) = _
    refine congrArg (V c main_arg4) (funext fun a => Fin.ext ?_)
    match a with
    | ⟨0, _⟩ => show win1_1.index t (0 : Fin 2) * 256 + 1 * k.val = k.val; omega
    | ⟨1, _⟩ => show win1_1.index t (1 : Fin 2) * 64 + 1 * (j 1).val = win1_2.index t (1 : Fin 2) * 64 + 1 * (j 1).val; omega
  rw [hx, hw]

/-- An entry of the result lies in grid point `t`'s block iff each coordinate lies in the block's range. -/
theorem inBlock (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v52).slice (win1_2.rect t)).set ↔ _
  rw [View.set_slice_whole, Rect.mem_set_unit]
  exact Iff.rfl

/-- Row `r` is written by the grid point whose block index is `r / 5000`: the blocks cover the array. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := everyRowBlock ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [inBlock]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- After the region the result array is the whole product of the feature and weight arrays the region found. -/
theorem wholeProduct (c : Dev nD) :
    (dat1 (F := Ideal) V c).arrAt 2 cfg1.N = rowsTimesCols (V c main_v51) (V c main_arg4) :=
  (dat1 (F := Ideal) V c).arrAt_eq_of_cover 2 _ (fun t _ => writtenBack V c t) covered

end Cert.KernelIdeal.Layer2

end
-- ==== Proof.KernelStages.lean ====
/-
  The kernel program's result is the reference's, stage by stage.

  Outside its two kernel regions the program applies to the edge list, the biases and the regions' results the very
  host operations the reference applies: the destination degrees with self-loops and their inverse square roots; per
  layer the gather of source rows, the scaling by the two endpoints' inverse-square-root degrees, the scatter-add over
  destinations and the bias; the rectifier between the layers. The program computes the degree vector once where the
  reference computes it once per layer, from the same edge list by the same operations. So each stretch of host
  operations, entered with the reference's values in the buffers it reads, leaves the reference's next stage in the
  buffer it writes; and each region's result array is the whole matrix product (the two layer modules), which over
  the extended reals is the reference's `dot_general`.
-/
import proofs.«165485_j30966714204224_1_alg».proof.Proof.Boundaries
import proofs.«165485_j30966714204224_1_alg».proof.Proof.Layer1Product
import proofs.«165485_j30966714204224_1_alg».proof.Proof.Layer2Product
import proofs.«165485_j30966714204224_1_alg».proof.Proof.RefRead
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo
open Cert.ReferenceIdeal.ReadP

/-- The operations' results still standing inside a concatenate's list of pieces, one rewrite at a time. -/
macro "results_inside" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

/-! ## The host stretches, at any float family -/

section Stretches

variable {F : FTy → Type} [FloatOps F]
variable (W : Valuation τ sig (Elt F))
variable (x0 : (⟨S100000x128, .f32⟩ : BufTy).Contents (Elt F)) (x1 : (⟨S2x800000, .i32⟩ : BufTy).Contents (Elt F))
  (x2 : (⟨S128x256, .f32⟩ : BufTy).Contents (Elt F)) (x3 : (⟨S256, .f32⟩ : BufTy).Contents (Elt F))
  (x4 : (⟨S256x64, .f32⟩ : BufTy).Contents (Elt F)) (x5 : (⟨S64, .f32⟩ : BufTy).Contents (Elt F))

set_option maxHeartbeats 4000000 in
/-- The first stretch: from the edge list, the inverse square roots of the destination degrees (self-loops counted),
    zero where a degree is not positive. -/
theorem degrees_eq (he : W (Proc.devRef .tc main_arg1) = x1) :
    after hostOps0_1 (after hostOps0 W) (Proc.devRef .tc main_v11) = val_main_v15 (F := F) x1 := by
  after_results_simp
  results_inside
  rw [he]
  rfl

set_option maxHeartbeats 4000000 in
/-- The second stretch: the first layer's aggregation of the product's rows over the edges, the bias, the rectifier. -/
theorem hidden_eq (hp : W (Proc.devRef .tc main_v12) = val_main_v0 (F := F) x0 x2)
    (hd : W (Proc.devRef .tc main_v11) = val_main_v15 (F := F) x1)
    (he : W (Proc.devRef .tc main_arg1) = x1) (hb : W (Proc.devRef .tc main_arg3) = x3) :
    after hostOps1_1 (after hostOps1 W) (Proc.devRef .tc main_v51) = val_main_v47 (F := F) x0 x1 x2 x3 := by
  after_results_simp
  results_inside
  rw [hp, hd, he, hb]
  rfl

set_option maxHeartbeats 4000000 in
/-- The last stretch: the second layer's aggregation and bias. -/
theorem output_eq (hp : W (Proc.devRef .tc main_v52) = val_main_v48 (F := F) x0 x1 x2 x3 x4)
    (hd : W (Proc.devRef .tc main_v11) = val_main_v15 (F := F) x1)
    (he : W (Proc.devRef .tc main_arg1) = x1) (hb : W (Proc.devRef .tc main_arg5) = x5) :
    after hostOps2 W (Proc.devRef .tc main_v90) = val_main_v94 (F := F) x0 x1 x2 x3 x4 x5 := by
  after_results_simp
  results_inside
  rw [hp, hd, he, hb]
  rfl

end Stretches

end Cert.KernelIdeal.Stages

end
-- ==== Proof.KernelResult.lean ====
/-
  The kernel program's result buffer, from the launch memory.

  Walking the run's boundaries: the first stretch leaves the inverse-square-root degrees; the first region leaves the
  whole product of the features and the first weights, which over the extended reals is the reference's first
  `dot_general` (both are `∑ₖ x(r, k) · w(k, c)`); the second stretch, reading those two and the untouched edge list and
  bias, leaves the reference's hidden features; the second region leaves their whole product with the second weights,
  the reference's second `dot_general`; and the last stretch leaves the reference's result.
-/
import proofs.«165485_j30966714204224_1_alg».proof.Proof.KernelStages

set_option maxRecDepth 16384

noncomputable section

namespace Cert.KernelIdeal.Result

open Cert.KernelIdeal Cert.KernelIdeal.Gen Idealize.ShloMosaic Idealize.ShloMosaic.TcCoe Idealize.SL.Sem Idealize.ShloMosaic.StableHlo
open Cert.KernelIdeal.Boundaries Cert.KernelIdeal.Stages Cert.ReferenceIdeal.ReadP

variable (m : (ℓ : Loc nD τ sig) → Buf (Elt Ideal) ℓ) (ρ : Dev nD → PrngReg)

/-- The first layer's product of any features and weights is the reference's first `dot_general` of them: entry by
    entry both are the sum over the 128 shared columns. -/
theorem product1_eq (x : S100000x128.Idx → EReal) (w : S128x256.Idx → EReal) :
    Layer1.rowsTimesCols x w = val_main_v0 (F := Ideal) x w := by
  funext i
  rw [val_main_v0_apply]
  unfold Layer1.rowsTimesCols
  refine Finset.sum_congr rfl fun k _ => ?_
  have e1 : Layer1.featAt i k = lidx_main_v0 i k := funext fun a => by
    match a with
    | ⟨0, _⟩ => rfl
    | ⟨1, _⟩ => rfl
  have e2 : Layer1.weightAt i k = ridx_main_v0 i k := funext fun a => by
    match a with
    | ⟨0, _⟩ => rfl
    | ⟨1, _⟩ => rfl
  rw [e1, e2]

/-- The inverse-square-root degrees, after the first stretch. -/
theorem degrees (c : Dev nD) :
    W2 m ρ c (Proc.devRef .tc main_v11) = val_main_v15 (F := Ideal) (m ((c : Thread nD τ).loc main_arg1)) :=
  degrees_eq (W0 m ρ c) _ rfl

/-- The first region's result array: the reference's first product. -/
theorem product1 (c : Dev nD) :
    W3 m ρ c (Proc.devRef .tc main_v12)
      = val_main_v0 (F := Ideal) (m ((c : Thread nD τ).loc main_arg0)) (m ((c : Thread nD τ).loc main_arg2)) := by
  refine (W3_arr m ρ c 2).trans ((Layer1.wholeProduct (V2 m ρ) c).trans ?_)
  rw [show V2 m ρ c main_arg0 = m ((c : Thread nD τ).loc main_arg0) from W2_features m ρ c,
    show V2 m ρ c main_arg2 = m ((c : Thread nD τ).loc main_arg2) from W2_weights1 m ρ c]
  exact product1_eq _ _

/-- The hidden features, after the second stretch. -/
theorem hidden (c : Dev nD) :
    W5 m ρ c (Proc.devRef .tc main_v51)
      = val_main_v47 (F := Ideal) (m ((c : Thread nD τ).loc main_arg0)) (m ((c : Thread nD τ).loc main_arg1))
          (m ((c : Thread nD τ).loc main_arg2)) (m ((c : Thread nD τ).loc main_arg3)) :=
  hidden_eq (W3 m ρ c) _ _ _ _ (product1 m ρ c) ((W3_degrees m ρ c).trans (degrees m ρ c)) (W3_edges m ρ c) (W3_bias1 m ρ c)

/-- The second layer's product of the reference's hidden features with any weights is the reference's second
    `dot_general`: entry by entry both are the sum over the 256 shared columns. -/
theorem product2_eq (x0 : S100000x128.Idx → EReal) (x1 : (⟨S2x800000, .i32⟩ : BufTy).Contents (Elt Ideal))
    (x2 : S128x256.Idx → EReal) (x3 : S256.Idx → EReal) (x4 : S256x64.Idx → EReal) :
    Layer2.rowsTimesCols (val_main_v47 (F := Ideal) x0 x1 x2 x3) x4 = val_main_v48 (F := Ideal) x0 x1 x2 x3 x4 := by
  funext i
  rw [val_main_v48_apply]
  unfold Layer2.rowsTimesCols
  refine Finset.sum_congr rfl fun k _ => ?_
  have e1 : Layer2.featAt i k = lidx_main_v48 i k := funext fun a => by
    match a with
    | ⟨0, _⟩ => rfl
    | ⟨1, _⟩ => rfl
  have e2 : Layer2.weightAt i k = ridx_main_v48 i k := funext fun a => by
    match a with
    | ⟨0, _⟩ => rfl
    | ⟨1, _⟩ => rfl
  rw [e1, e2]

/-- The second region's result array: the reference's second product. -/
theorem product2 (c : Dev nD) :
    W6 m ρ c (Proc.devRef .tc main_v52)
      = val_main_v48 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (W6_arr m ρ c 2).trans ((Layer2.wholeProduct (V5 m ρ) c).trans ?_)
  rw [show V5 m ρ c main_v51 = _ from hidden m ρ c,
    show V5 m ρ c main_arg4 = m ((c : Thread nD τ).loc main_arg4) from W5_weights2 m ρ c]
  exact product2_eq _ _ _ _ _

/-- The result buffer at the end of the run: the reference's result stage of the launch memory's arguments. -/
theorem result (c : Dev nD) :
    W7 m ρ c (Proc.devRef .tc main_v90)
      = val_main_v94 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) :=
  output_eq (W6 m ρ c) _ _ _ _ _ _ (product2 m ρ c) ((W6_degrees m ρ c).trans (degrees m ρ c)) (W6_edges m ρ c) (W6_bias2 m ρ c)

end Cert.KernelIdeal.Result

end
-- ==== Proof.lean ====
/-
  A two-layer graph convolution: the Pallas program against its jnp reference, over the extended reals.

  Both programs compute, from node features `x`, an edge list and two weight matrices and biases,
  `out = Â · relu(Â · (x W₁) + b₁) W₂ + b₂` with `Â` the symmetrically normalised adjacency with self-loops, spelt as
  gathers, a scaling and scatter-adds over the edge list. They differ in two places only. The program forms the two
  dense products `x W₁` and `h W₂` in kernel regions, 5000 rows per grid point, rounding the operands to bf16 and
  accumulating into zeros, where the reference has one `dot_general` each: over the extended reals rounding is the
  identity and both are the sum `∑ₖ x(r, k) · w(k, c)`, and the row blocks tile the array (Proof/Layer1Product.lean,
  Proof/Layer2Product.lean). And the program computes the inverse-square-root degree vector once where the reference
  computes it per layer, by the same operations of the same edge list. Everything else is the same host operations
  applied to equal values (Proof/KernelStages.lean, Proof/KernelResult.lean). No law of the extended reals beyond
  `0 + s = s` is used, so the finiteness of the inputs is never opened.

  The three frames: the two kernel programs' are the generated frame certificates; the reference's is its run with the
  result dropped. The idealisation rewrote nothing, so `preserves` is trivial.
-/
import proofs.«165485_j30966714204224_1_alg».proof.Defs
import proofs.«165485_j30966714204224_1_alg».proof.Proof.Gen.Kernel
import proofs.«165485_j30966714204224_1_alg».proof.Proof.Gen.Kernel.Frame
import proofs.«165485_j30966714204224_1_alg».proof.Proof.Gen.KernelIdeal
import proofs.«165485_j30966714204224_1_alg».proof.Proof.Gen.KernelIdeal.Frame
import proofs.«165485_j30966714204224_1_alg».proof.Proof.Gen.ReferenceIdeal
import proofs.«165485_j30966714204224_1_alg».proof.Proof.Gen.Pre_finite_inputs
import proofs.«165485_j30966714204224_1_alg».proof.Proof.RefRun
import proofs.«165485_j30966714204224_1_alg».proof.Proof.RefRead
import proofs.«165485_j30966714204224_1_alg».proof.Proof.KernelRunResult
import proofs.«165485_j30966714204224_1_alg».proof.Proof.KernelResult
import Idealize.ShloMosaic.Adequacy
import Idealize.ShloMosaic.Init

noncomputable section

namespace Cert.Proof

open Idealize.ShloMosaic Idealize.ShloMosaic.TcCoe Idealize.SL.Sem

namespace Claims

theorem frame_kernel : Cert.frame_Kernel :=
  fun m ρ _ => Cert.Kernel.Gen.frame m ρ

theorem frame_kernelIdeal : Cert.frame_KernelIdeal :=
  fun m ρ _ => Cert.KernelIdeal.Gen.frame m ρ

theorem frame_referenceIdeal : Cert.frame_ReferenceIdeal :=
  fun m ρ _ => (θ_run Cert.ReferenceIdeal.defs _ _).mono (fun _ h c => (h c).2) (Cert.ReferenceIdeal.ValueP.run (F := Ideal) m ρ)

/-- Both programs end with the reference's result stage of the (agreeing) arguments in their result buffers. -/
theorem algebraic : Cert.algebraic_KernelIdeal_ReferenceIdeal := by
  intro m ρ m' ρ' _ hagree
  refine ⟨_, (θ_run Cert.KernelIdeal.defs _ _).mono (fun _ h c => ⟨(h c).1.trans (Cert.KernelIdeal.Result.result m ρ c), (h c).2⟩)
    (Cert.KernelIdeal.RunResult.run_result (F := Ideal) m ρ), ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v94_eq, (hagree c).1, (hagree c).2.1, (hagree c).2.2.1, (hagree c).2.2.2.1,
    (hagree c).2.2.2.2.1, (hagree c).2.2.2.2.2]

end Claims

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, trivial, Claims.algebraic⟩

end Cert.Proof

end
